-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x768 : Shape := ⟨3, ![8, 4096, 768]⟩
abbrev S768x768 : Shape := ⟨2, ![768, 768]⟩
abbrev S768 : Shape := ⟨1, ![768]⟩
abbrev S_ : Shape := ⟨0, ![]⟩

class Facts : Prop where
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768x768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  main_v23

def fn {F : FTy → Type} [FloatOps F] (main_arg0 : FVec F S8x4096x768 .f32) (main_arg1 : FVec F S768x768 .f32) (main_arg2 : FVec F S768 .f32) (main_arg3 : FVec F S768x768 .f32) (main_arg4 : FVec F S768x768 .f32) : IVec S_ 1 :=
  let main_v0 : FVec F S8x4096x768 .f32 := Host.absf main_arg0
  let main_cst : FVec F S_ .f32 := constant S_ .f32 0x7F800000#32
  let main_v1 : FVec F S8x4096x768 .f32 := broadcastInDim S8x4096x768 ![] bcast_S_S8x4096x768 main_cst
  let main_v2 : IVec S8x4096x768 1 := cmpf .olt main_v0 main_v1
  let main_c : IVec S_ 1 := constantI S_ 1 1#1
  let main_v3 : IVec S_ 1 := (fun x v => Host.reduce IntOp.andi x v reducesTo_S8x4096x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S8x4096x768 : Shape := ⟨3, ![8, 4096, 768]⟩
abbrev S768x768 : Shape := ⟨2, ![768, 768]⟩
abbrev S768 : Shape := ⟨1, ![768]⟩
abbrev S32768x768 : Shape := ⟨2, ![32768, 768]⟩
abbrev S1x768 : Shape := ⟨2, ![1, 768]⟩
abbrev S1024x768 : Shape := ⟨2, ![1024, 768]⟩

abbrev nBuf : Space → Nat
  | .hbm => 12
  | .vmem => 8
  | .smem => 0
  | _ => 0

abbrev bufTy : (tb : Table) → Fin (tcTables nBuf tb) → BufTy
  | .hbm, ⟨0, _⟩ => ⟨S8x4096x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768x768, .f32⟩
  | .hbm, ⟨5, _⟩ => ⟨S32768x768, .f32⟩
  | .hbm, ⟨6, _⟩ => ⟨S1x768, .f32⟩
  | .hbm, ⟨7, _⟩ => ⟨S768x768, .bf16⟩
  | .hbm, ⟨8, _⟩ => ⟨S768x768, .bf16⟩
  | .hbm, ⟨9, _⟩ => ⟨S768x768, .bf16⟩
  | .hbm, ⟨10, _⟩ => ⟨S32768x768, .f32⟩
  | .hbm, ⟨11, _⟩ => ⟨S8x4096x768, .f32⟩
  | .local _ .vmem, ⟨0, _⟩ => ⟨S1024x768, .f32⟩
  | .local _ .vmem, ⟨1, _⟩ => ⟨S1024x768, .f32⟩
  | .local _ .vmem, ⟨2, _⟩ => ⟨S768x768, .bf16⟩
  | .local _ .vmem, ⟨3, _⟩ => ⟨S768x768, .bf16⟩
  | .local _ .vmem, ⟨4, _⟩ => ⟨S768x768, .bf16⟩
  | .local _ .vmem, ⟨5, _⟩ => ⟨S1x768, .f32⟩
  | .local _ .vmem, ⟨6, _⟩ => ⟨S1024x768, .f32⟩
  | .local _ .vmem, ⟨7, _⟩ => ⟨S1024x768, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x4096x768_S32768x768 : S8x4096x768.ShapeCasts S32768x768
  shapeCasts_S768_S1x768 : S768.ShapeCasts S1x768
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  shapeCasts_S32768x768_S8x4096x768 : S32768x768.ShapeCasts S8x4096x768
  dot_S1024x768_S768x768_S1024x768_1_1_0_0_n_n_wf : DotDims.WF S1024x768 S768x768 S1024x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S32768x768.size a
  hwx0_0 : ∀ i : grid0.Coords, EltTy.bits .f32 = 32 ∨ (Rect.block (s := S32768x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x768.size a ≤ S32768x768.size a
  hwx0_5 : ∀ i : grid0.Coords, EltTy.bits .f32 = 32 ∨ (Rect.block (s := S32768x768) S1024x768.size (cc0_transform_5 i) (hinb0_5 i)).WholeWords (EltTy.packing .f32)

variable [Facts₀]

def dot_S1024x768_S768x768_S1024x768_1_1_0_0_n_n : DotDims S1024x768 S768x768 S1024x768 where
  lhsContracting := [1]
  rhsContracting := [1]
  lhsNonContracting := [0]
  rhsNonContracting := [0]
  lhsBatch := []
  rhsBatch := []
  wf := dot_S1024x768_S768x768_S1024x768_1_1_0_0_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x768 : Shape := ⟨3, ![8, 4096, 768]⟩
abbrev S768x768 : Shape := ⟨2, ![768, 768]⟩
abbrev S768 : Shape := ⟨1, ![768]⟩
abbrev S_ : Shape := ⟨0, ![]⟩
abbrev S1x1x768 : Shape := ⟨3, ![1, 1, 768]⟩

abbrev nBuf : Space → Nat
  | .hbm => 18
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768x768, .f32⟩
  | .hbm, ⟨5, _⟩ => ⟨S8x4096x768, .f32⟩
  | .hbm, ⟨6, _⟩ => ⟨S8x4096x768, .f32⟩
  | .hbm, ⟨7, _⟩ => ⟨S_, .f32⟩
  | .hbm, ⟨8, _⟩ => ⟨S8x4096x768, .f32⟩
  | .hbm, ⟨9, _⟩ => ⟨S8x4096x768, .i1⟩
  | .hbm, ⟨10, _⟩ => ⟨S_, .f32⟩
  | .hbm, ⟨11, _⟩ => ⟨S8x4096x768, .f32⟩
  | .hbm, ⟨12, _⟩ => ⟨S8x4096x768, .f32⟩
  | .hbm, ⟨13, _⟩ => ⟨S8x4096x768, .f32⟩
  | .hbm, ⟨14, _⟩ => ⟨S8x4096x768, .f32⟩
  | .hbm, ⟨15, _⟩ => ⟨S1x1x768, .f32⟩
  | .hbm, ⟨16, _⟩ => ⟨S8x4096x768, .f32⟩
  | .hbm, ⟨17, _⟩ => ⟨S8x4096x768, .f32⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S_S8x4096x768 : S_.BroadcastsInDim S8x4096x768 (![] : Fin 0 → Fin S8x4096x768.rank)
  bcast_S768_S1x1x768_2 : S768.BroadcastsInDim S1x1x768 (![2] : Fin 1 → Fin S1x1x768.rank)
  bcast_S1x1x768_S8x4096x768_0_1_2 : S1x1x768.BroadcastsInDim S8x4096x768 (![0, 1, 2] : Fin 3 → Fin S8x4096x768.rank)
  dot_S8x4096x768_S768x768_S8x4096x768_2_1_01_0_n_n_wf : DotDims.WF S8x4096x768 S768x768 S8x4096x768 [2] [1] [0, 1] [0] [] []

variable [Facts₀]

def dot_S8x4096x768_S768x768_S8x4096x768_2_1_01_0_n_n : DotDims S8x4096x768 S768x768 S8x4096x768 where
  lhsContracting := [2]
  rhsContracting := [1]
  lhsNonContracting := [0, 1]
  rhsNonContracting := [0]
  lhsBatch := []
  rhsBatch := []
  wf := dot_S8x4096x768_S768x768_S8x4096x768_2_1_01_0_n_n_wf

class Facts : Prop extends Facts₀ where

variable [Facts]
-- ==== Proof.RowMap.lean ====
/-
  The mathematics both programs compute, stated once over the extended reals.

  Every output row depends on one input row only.  For a row `v` of length 768 and square matrices `U`, `W`, `VT`
  (each contracted along its SECOND axis, i.e. multiplied as a transpose) and a bias row `b`:

      h   = v · Uᵀ                      h_d   = Σ_k v_k · U_{d,k}
      h'  = h where |h| > θ, else 0      (θ the f32 word 0x3A83126F, the same word in both programs)
      r   = h' · Wᵀ                     r_o   = Σ_k h'_k · W_{o,k}
      out = r · VTᵀ + b                 out_p = Σ_k r_k · VT_{p,k} + b_p

  The kernel does this for the 32768 rows of the flattened input, 1024 rows per grid point; the reference for the
  rows of the [8, 4096, 768] input directly.  No law of arithmetic is needed to join them: the sums are the same sums
  of the same products, so nothing here depends on the inputs being finite.
-/
import Idealize.ShloMosaic.PureOps.Ideal
import Idealize.ShloMosaic.PureOps.Ideal.Laws
import Idealize.ShloMosaic.Lib.ValueIdx

noncomputable section

namespace Cert.RowMap

open Idealize.ShloMosaic Idealize.ShloMosaic.ValueIdx

/-- A row of 768 extended reals. -/
abbrev Row : Type := Fin 768 → EReal
/-- A 768 × 768 matrix of extended reals, indexed as the programs index it. -/
abbrev Mat : Type := (⟨2, ![768, 768]⟩ : Shape).Idx → EReal

/-- A row times the transpose of a matrix: entry `d` is the sum over `k` of `v k` times the matrix at `(d, k)`. -/
def contract (v : Row) (A : Mat) : Row := fun d => ∑ k : Fin 768, v k * A (ix2 d k)

/-- The threshold: an entry is kept where its absolute value exceeds the f32 word for `1e-3`, and is replaced by the
    zero word elsewhere. -/
def keep (h : EReal) : EReal :=
  Scalar.select (Ideal.cmp .ogt (max h (-h)) (Ideal.ofBits .f32 0x3A83126F#32)) h (Ideal.ofBits .f32 0x00000000#32)

/-- One output row from one input row. -/
def rowOut (v : Row) (U W VT : Mat) (b : Row) : Row :=
  fun p => contract (contract (fun d => keep (contract v U d)) W) VT p + b p

/-- The result over the flattened rows: row `i 0` of the [32768, 768] input, bias read from a [1, 768] array. -/
def onRows (x : (⟨2, ![32768, 768]⟩ : Shape).Idx → EReal) (U W VT : Mat) (b : (⟨2, ![1, 768]⟩ : Shape).Idx → EReal) :
    (⟨2, ![32768, 768]⟩ : Shape).Idx → EReal :=
  fun i => rowOut (fun k => x (ix2 (i 0) k)) U W VT (fun p => b (ix2 (0 : Fin 1) p)) (i 1)

/-- The result over the [8, 4096, 768] input: row `(i 0, i 1)`, bias a vector of length 768. -/
def onBatch (x : (⟨3, ![8, 4096, 768]⟩ : Shape).Idx → EReal) (U W VT : Mat) (b : (⟨1, ![768]⟩ : Shape).Idx → EReal) :
    (⟨3, ![8, 4096, 768]⟩ : Shape).Idx → EReal :=
  fun i => rowOut (fun k => x (ix3 (i 0) (i 1) k)) U W VT (fun p => b (ix1 p)) (i 2)

end Cert.RowMap

end
-- ==== Proof.Body.lean ====
/-
  What one grid point's body computes, entry by entry.

  The body loads a block of 1024 rows of the flattened input, the three square matrices and the bias row, and stores
  one block of 1024 output rows.  Entry `(q, p)` of the stored block is the row map of `RowMap` applied to row `q` of
  the loaded block: each of the three matrix products contracts the SECOND axis of both operands into a zero
  accumulator, so its entry `(q, d)` is the sum over `k` of the left operand at `(q, k)` times the right at `(d, k)`;
  the changes of float format between them are the identity on extended reals; the mask and the bias add act entry by
  entry, the bias row being broadcast along the rows.
-/
import proofs.«143843_j12506944766463_1_alg».proof.Proof.Gen.KernelIdeal.Skeleton
import proofs.«143843_j12506944766463_1_alg».proof.Proof.RowMap
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.RowMap

/-! ## The product's index maps, axis by axis -/

/-- The left operand is read on the output's row. -/
theorem lhs_axis0 (i : S1024x768.Idx) (q : dot_S1024x768_S768x768_S1024x768_1_1_0_0_n_n.contr.Idx) :
    (dot_S1024x768_S768x768_S1024x768_1_1_0_0_n_n.lhsIdx i q 0).val = (i 0).val := by
  unfold DotDims.lhsIdx
  rw [dif_neg (show ¬(0 : Fin S1024x768.rank) ∈ dot_S1024x768_S768x768_S1024x768_1_1_0_0_n_n.lhsBatch by decide), dif_pos (show (0 : Fin S1024x768.rank) ∈ dot_S1024x768_S768x768_S1024x768_1_1_0_0_n_n.lhsNonContracting by decide)]
  rfl
/-- Its second coordinate is the contracted one. -/
theorem lhs_axis1 (i : S1024x768.Idx) (q : dot_S1024x768_S768x768_S1024x768_1_1_0_0_n_n.contr.Idx) :
    (dot_S1024x768_S768x768_S1024x768_1_1_0_0_n_n.lhsIdx i q 1).val = (q ⟨0, by decide⟩).val :=
  dot_S1024x768_S768x768_S1024x768_1_1_0_0_n_n.lhsIdx_val_of_single rfl i q
/-- The right operand is read on the row named by the output's COLUMN (the product is with the transpose). -/
theorem rhs_axis0 (i : S1024x768.Idx) (q : dot_S1024x768_S768x768_S1024x768_1_1_0_0_n_n.contr.Idx) :
    (dot_S1024x768_S768x768_S1024x768_1_1_0_0_n_n.rhsIdx i q 0).val = (i 1).val := by
  unfold DotDims.rhsIdx
  rw [dif_neg (show ¬(0 : Fin S768x768.rank) ∈ dot_S1024x768_S768x768_S1024x768_1_1_0_0_n_n.rhsBatch by decide), dif_pos (show (0 : Fin S768x768.rank) ∈ dot_S1024x768_S768x768_S1024x768_1_1_0_0_n_n.rhsNonContracting by decide)]
  rfl
/-- Its second coordinate is the contracted one. -/
theorem rhs_axis1 (i : S1024x768.Idx) (q : dot_S1024x768_S768x768_S1024x768_1_1_0_0_n_n.contr.Idx) :
    (dot_S1024x768_S768x768_S1024x768_1_1_0_0_n_n.rhsIdx i q 1).val = (q ⟨0, by decide⟩).val :=
  dot_S1024x768_S768x768_S1024x768_1_1_0_0_n_n.rhsIdx_val_of_single rfl i q

/-! ## One product, at an entry -/

/-- A block of rows times the transpose of a square matrix, into a zero accumulator: entry `(q, d)` is row `q` of the
    block contracted with row `d` of the matrix. -/
theorem product_at {φ₁ φ₂ : FTy} (a : FVec Ideal S1024x768 φ₁) (B : FVec Ideal S768x768 φ₂) (q : Fin 1024) (d : Fin 768) :
    matmul dot_S1024x768_S768x768_S1024x768_1_1_0_0_n_n none a B (constant S1024x768 .f32 0x00000000#32) (ix2 q d)
      = contract (fun k => a (ix2 q k)) B d := by
  unfold contract
  show FloatOps.matmul dot_S1024x768_S768x768_S1024x768_1_1_0_0_n_n none a B (constant S1024x768 .f32 0x00000000#32) (ix2 q d) = _
  rw [Ideal.matmul_constant_zero_apply, ← Equiv.sum_comp (contrEquiv1 dot_S1024x768_S768x768_S1024x768_1_1_0_0_n_n 768 rfl rfl).symm]
  refine Finset.sum_congr rfl fun k _ => ?_
  have hk := contrEquiv1_symm_val dot_S1024x768_S768x768_S1024x768_1_1_0_0_n_n 768 rfl rfl k
  have el : dot_S1024x768_S768x768_S1024x768_1_1_0_0_n_n.lhsIdx (ix2 q d) ((contrEquiv1 dot_S1024x768_S768x768_S1024x768_1_1_0_0_n_n 768 rfl rfl).symm k) = ix2 q k := funext fun a => Fin.ext (by
    match a with
    | ⟨0, _⟩ => exact lhs_axis0 _ _
    | ⟨1, _⟩ => exact (lhs_axis1 _ _).trans hk)
  have er : dot_S1024x768_S768x768_S1024x768_1_1_0_0_n_n.rhsIdx (ix2 q d) ((contrEquiv1 dot_S1024x768_S768x768_S1024x768_1_1_0_0_n_n 768 rfl rfl).symm k) = ix2 d k := funext fun a => Fin.ext (by
    match a with
    | ⟨0, _⟩ => exact rhs_axis0 _ _
    | ⟨1, _⟩ => exact (rhs_axis1 _ _).trans hk)
  rw [el, er]

/-! ## The bias row, broadcast along the rows -/

theorem bias_at (b : FVec Ideal S1x768 .f32) (q : Fin 1024) (p : Fin 768) :
    broadcastTo S1024x768 b broadcasts_S1x768_S1024x768 (ix2 q p) = b (ix2 (0 : Fin 1) p) :=
  broadcastTo_apply b broadcasts_S1x768_S1024x768 (ix2 q p) (ix2 (0 : Fin 1) p) (fun a => by
    match a with
    | ⟨0, _⟩ => rfl
    | ⟨1, _⟩ => rfl)

/-! ## The absolute value, entry by entry -/

theorem absf_at {s : Shape} {φ : FTy} (x : FVec Ideal s φ) (i : s.Idx) : absf x i = max (x i) (-(x i)) := rfl

/-! ## The stored block -/

/-- Entry `(q, p)` of what the body stores is the row map of row `q` of the loaded input block. -/
theorem stored_at (x0 : Vec Ideal S1024x768 .f32) (x1 x2 x3 : Vec Ideal S768x768 .bf16) (x4 : Vec Ideal S1x768 .f32)
    (q : Fin 1024) (p : Fin 768) :
    k0_pay1 (F := Ideal) x0 x1 x2 x3 x4 (ix2 q p)
      = rowOut (fun k => x0 (ix2 q k)) x1 x2 x3 (fun p' => x4 (ix2 (0 : Fin 1) p')) p := by
  unfold k0_pay1
  simp only [shapeCast_self]
  rw [addf_apply, bias_at, product_at]
  unfold rowOut
  refine congrArg (fun f : Row => contract f x3 p + x4 (ix2 (0 : Fin 1) p)) (funext fun k => ?_)
  rw [truncf_apply, product_at]
  refine congrArg (fun f : Row => contract f x2 k) (funext fun d => ?_)
  rw [truncf_apply, select_apply, cmpf_apply, absf_at, broadcast_apply, broadcast_apply, product_at]
  rfl

end Cert.KernelIdeal.Body

end
-- ==== Proof.Rows.lean ====
/-
  From the blocks to the array.

  Grid point `t` (of 32) reads rows `1024 t … 1024 t + 1023` of the flattened input and the whole of each matrix and of
  the bias row, and writes back rows `1024 t … 1024 t + 1023` of the output.  By `Body` the block it writes is the row
  map of the rows it read, so it is block `t` of ONE array, `RowMap.onRows` of the arrays as the region finds them; the
  32 blocks tile the 32768 rows, so after the region the output array is that array.
-/
import proofs.«143843_j12506944766463_1_alg».proof.Proof.Gen.KernelIdeal.Frame
import proofs.«143843_j12506944766463_1_alg».proof.Proof.Body
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Rows

open Cert.KernelIdeal Cert.KernelIdeal.Gen Idealize.ShloMosaic.ValueIdx Cert.RowMap

variable (m : (ℓ : Loc nD τ sig) → Buf (Elt Ideal) ℓ) (ρ : Dev nD → PrngReg)

theorem hz : (![0, 0] : Fin 2 → Nat) = fun _ => 0 := funext fun a => by fin_cases a <;> rfl

/-- The block indices over the grid: the input rows and the output rows move with the point, everything else stays at
    block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The output array the region leaves, as one function of the arrays it finds. -/
abbrev target (c : Dev nD) : S32768x768.Idx → EReal :=
  onRows (V m c main_v0) (V m c main_v2) (V m c main_v3) (V m c main_v4) (V m c main_v1)

/-- The input block at point `t` is rows `1024 t …` of the flattened input. -/
theorem rows_read (c : Dev nD) (t : Fin cfg0.N) (q : Fin 1024) (k : Fin 768) (r : Fin 32768) (hr : r.val = t.val * 1024 + q.val) :
    (iblk m c 0 t : Vec Ideal S1024x768 .f32) (ix2 q k) = (V m c main_v0 : S32768x768.Idx → EReal) (ix2 r k) := by
  obtain ⟨a0, a1, -⟩ := idx_facts t
  unfold iblk
  rw [View.read_apply]
  show V m c main_v0 _ = V m c main_v0 _
  congr 1
  funext a
  apply Fin.ext
  match a with
  | ⟨0, _⟩ => show win0_0.index t 0 * 1024 + 1 * q.val = r.val; rw [a0, hr]; omega
  | ⟨1, _⟩ => show win0_0.index t 1 * 768 + 1 * k.val = k.val; rw [a1]; omega

/-- Each matrix is read whole at every point. -/
theorem whole1 (c : Dev nD) (t : Fin cfg0.N) : (iblk m c 1 t : Vec Ideal S768x768 .bf16) = V m c main_v2 := by
  obtain ⟨-, -, b0, b1, -⟩ := idx_facts t
  funext y
  unfold iblk
  rw [View.read_apply]
  show V m c main_v2 _ = V m c main_v2 y
  congr 1
  funext a
  apply Fin.ext
  match a with
  | ⟨0, _⟩ => show win0_1.index t 0 * 768 + 1 * (y 0).val = (y 0).val; rw [b0]; omega
  | ⟨1, _⟩ => show win0_1.index t 1 * 768 + 1 * (y 1).val = (y 1).val; rw [b1]; omega
theorem whole2 (c : Dev nD) (t : Fin cfg0.N) : (iblk m c 2 t : Vec Ideal S768x768 .bf16) = V m c main_v3 := by
  obtain ⟨-, -, -, -, c0, c1, -⟩ := idx_facts t
  funext y
  unfold iblk
  rw [View.read_apply]
  show V m c main_v3 _ = V m c main_v3 y
  congr 1
  funext a
  apply Fin.ext
  match a with
  | ⟨0, _⟩ => show win0_2.index t 0 * 768 + 1 * (y 0).val = (y 0).val; rw [c0]; omega
  | ⟨1, _⟩ => show win0_2.index t 1 * 768 + 1 * (y 1).val = (y 1).val; rw [c1]; omega
theorem whole3 (c : Dev nD) (t : Fin cfg0.N) : (iblk m c 3 t : Vec Ideal S768x768 .bf16) = V m c main_v4 := by
  obtain ⟨-, -, -, -, -, -, d0, d1, -⟩ := idx_facts t
  funext y
  unfold iblk
  rw [View.read_apply]
  show V m c main_v4 _ = V m c main_v4 y
  congr 1
  funext a
  apply Fin.ext
  match a with
  | ⟨0, _⟩ => show win0_3.index t 0 * 768 + 1 * (y 0).val = (y 0).val; rw [d0]; omega
  | ⟨1, _⟩ => show win0_3.index t 1 * 768 + 1 * (y 1).val = (y 1).val; rw [d1]; omega
/-- So is the bias row. -/
theorem whole4 (c : Dev nD) (t : Fin cfg0.N) : (iblk m c 4 t : Vec Ideal S1x768 .f32) = V m c main_v1 := by
  obtain ⟨-, -, -, -, -, -, -, -, e0, e1, -⟩ := idx_facts t
  funext y
  unfold iblk
  rw [View.read_apply]
  show V m c main_v1 _ = V m c main_v1 y
  congr 1
  funext a
  apply Fin.ext
  match a with
  | ⟨0, _⟩ => show win0_4.index t 0 * 1 + 1 * (y 0).val = (y 0).val; rw [e0]; omega
  | ⟨1, _⟩ => show win0_4.index t 1 * 768 + 1 * (y 1).val = (y 1).val; rw [e1]; omega

/-- WHAT POINT `t` WRITES BACK is block `t` of `target`. -/
theorem flushed_eq (c : Dev nD) (t : Fin cfg0.N) :
    (dats m 0 c).flushed 5 t = ((cfg0.win 5).blk t).view.read (Elt Ideal) (target m c) := by
  show (cfg0.win 5).cut (grid0.coords t) ((dats m 0 c).after 5 t) = _
  rw [after0_5]
  unfold out0_5
  rw [View.canon_unit_zero hz]
  simp only [View.ld_unit_zero (S := S1024x768) hz, View.ld_unit_zero (S := S768x768) hz, View.ld_unit_zero (S := S1x768) hz]
  obtain ⟨a0, a1, b0, b1, c0, c1, d0, d1, e0, e1, f0, f1⟩ := idx_facts t
  funext j
  obtain ⟨q, p, rfl⟩ : ∃ (q : Fin 1024) (p : Fin 768), j = ix2 q p := ⟨j 0, j 1, eq_ix2 j⟩
  show k0_pay1 (F := Ideal) (iblk m c 0 t) (iblk m c 1 t) (iblk m c 2 t) (iblk m c 3 t) (iblk m c 4 t) (ix2 q p)
      = target m c (((cfg0.win 5).blk t).view.emb (ix2 q p))
  refine (Body.stored_at (iblk m c 0 t) (iblk m c 1 t) (iblk m c 2 t) (iblk m c 3 t) (iblk m c 4 t) q p).trans ?_
  have hp : ((cfg0.win 5).blk t).view.emb (ix2 q p) 1 = p :=
    Fin.ext (by show win0_5.index t 1 * 768 + 1 * p.val = p.val; rw [f1]; omega)
  show rowOut (fun k => iblk m c 0 t (ix2 q k)) (iblk m c 1 t) (iblk m c 2 t) (iblk m c 3 t) (fun p' => iblk m c 4 t (ix2 (0 : Fin 1) p')) p
      = rowOut (fun k => V m c main_v0 (ix2 (((cfg0.win 5).blk t).view.emb (ix2 q p) 0) k)) (V m c main_v2) (V m c main_v3) (V m c main_v4)
          (fun p' => V m c main_v1 (ix2 (0 : Fin 1) p')) (((cfg0.win 5).blk t).view.emb (ix2 q p) 1)
  rw [whole1, whole2, whole3, whole4, hp]
  congr 1
  funext k
  exact rows_read m c t q k _ (by show win0_5.index t 0 * 1024 + 1 * q.val = _; rw [f0]; omega)

/-- An index of the output array is in point `t`'s block iff each coordinate is in the block's range on its axis. -/
theorem mem_blk (t : Fin cfg0.N) (i : S32768x768.Idx) :
    i ∈ ((cfg0.win 5).blk t).view.set ↔ ∀ a : Fin 2, win0_5.index t a * S1024x768.size a ≤ (i a).val ∧ (i a).val < win0_5.index t a * S1024x768.size a + S1024x768.size a := by
  show i ∈ ((View.whole main_v5).slice (win0_5.rect t)).set ↔ _
  rw [View.set_slice_whole, Rect.mem_set_unit]
  exact Iff.rfl

/-- Row `r` of the output is written back by point `r / 1024`: the 32 blocks tile the array. -/
theorem covered (i : S32768x768.Idx) :
    ∃ t : Fin cfg0.N, (cfg0.win 5).flush t = true ∧ i ∈ ((cfg0.win 5).blk t).view.set := by
  have hi0 : (i 0).val < 32768 := (i 0).isLt
  have hi1 : (i 1).val < 768 := (i 1).isLt
  have hN : cfg0.N = 32 := N_0
  obtain ⟨t, ht⟩ : ∃ t : Fin cfg0.N, t.val = (i 0).val / 1024 := ⟨⟨(i 0).val / 1024, by rw [hN]; omega⟩, rfl⟩
  obtain ⟨-, -, -, -, -, -, -, -, -, -, f0, f1⟩ := idx_facts t
  refine ⟨t, flush0_5 t, ?_⟩
  rw [mem_blk]
  intro a
  match a with
  | ⟨0, _⟩ => show win0_5.index t 0 * 1024 ≤ (i 0).val ∧ (i 0).val < win0_5.index t 0 * 1024 + 1024; rw [f0, ht]; omega
  | ⟨1, _⟩ => show win0_5.index t 1 * 768 ≤ (i 1).val ∧ (i 1).val < win0_5.index t 1 * 768 + 768; rw [f1]; omega

/-- THE OUTPUT ARRAY after the region is `target`. -/
theorem final (c : Dev nD) : (dats m 0 c).arrAt 5 cfg0.N = target m c :=
  (dats m 0 c).arrAt_eq_of_cover 5 (target m c) (fun t _ => flushed_eq m c t) covered

end Cert.KernelIdeal.Rows

end
-- ==== Proof.Around.lean ====
/-
  Around the region: the host operations before and after it, and the whole run.

  Before the region the host flattens the [8, 4096, 768] input to [32768, 768] (row `(b, r)` becomes row `4096 b + r`),
  views the bias vector as a [1, 768] array, and changes the float format of the three matrices, which at the extended
  reals is the identity.  After the region it views the [32768, 768] result as [8, 4096, 768] again.  So the kernel's
  result at `(b, r, p)` is the row map of row `(b, r)` of the input at `p`: `RowMap.onBatch` of the arguments.
-/
import proofs.«143843_j12506944766463_1_alg».proof.Proof.Rows
import Idealize.ShloMosaic.Lib.StableHlo.Run
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Around

open Cert.KernelIdeal Cert.KernelIdeal.Gen Idealize.ShloMosaic.ValueIdx Cert.RowMap Cert.KernelIdeal.Rows

variable (m : (ℓ : Loc nD τ sig) → Buf (Elt Ideal) ℓ) (ρ : Dev nD → PrngReg)

/-! ## What the region finds -/

/-- The flattened input. -/
theorem rows_in (c : Dev nD) : (V m c main_v0 : S32768x768.Idx → EReal)
    = shapeCast S32768x768 (m ((c : Thread nD τ).loc main_arg0)) shapeCasts_S8x4096x768_S32768x768 := by
  show StableHlo.after hostOps0 (fun b => m (c, b)) (Proc.devRef .tc main_v0) = _
  after_results
  rfl

/-- The bias as a one-row array. -/
theorem bias_in (c : Dev nD) : (V m c main_v1 : S1x768.Idx → EReal)
    = shapeCast S1x768 (m ((c : Thread nD τ).loc main_arg2)) shapeCasts_S768_S1x768 := by
  show StableHlo.after hostOps0 (fun b => m (c, b)) (Proc.devRef .tc main_v1) = _
  after_results
  rfl

/-- The three matrices, unchanged by the change of format. -/
theorem first_in (c : Dev nD) : (V m c main_v2 : Mat) = m ((c : Thread nD τ).loc main_arg3) := by
  show StableHlo.after hostOps0 (fun b => m (c, b)) (Proc.devRef .tc main_v2) = _
  after_results
  rfl
theorem second_in (c : Dev nD) : (V m c main_v3 : Mat) = m ((c : Thread nD τ).loc main_arg1) := by
  show StableHlo.after hostOps0 (fun b => m (c, b)) (Proc.devRef .tc main_v3) = _
  after_results
  rfl
theorem third_in (c : Dev nD) : (V m c main_v4 : Mat) = m ((c : Thread nD τ).loc main_arg4) := by
  show StableHlo.after hostOps0 (fun b => m (c, b)) (Proc.devRef .tc main_v4) = _
  after_results
  rfl

/-! ## What the host leaves after the region -/

/-- The result buffer after the last host operation: the region's output array viewed as [8, 4096, 768]. -/
theorem out_eq (c : Dev nD) : Pipeline.afterTail₀ cfgs (dats m) 0 (V0 m) [hostOps1] c main_v6
    = shapeCast S8x4096x768 (target m c) shapeCasts_S32768x768_S8x4096x768 := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.tc.devRef main_v5) = target m c from
    (Pipeline.withArrays_arr spec0 launch0.win.arr_inj c _ _ 5).trans (final m c)]
  rfl

/-! ## The result, entry by entry -/

/-- The kernel's result is the row map of each row `(b, r)` of the input: the first matrix is @main's fourth argument,
    the second its second, the third its fifth, the bias its third. -/
theorem result_eq (c : Dev nD) : shapeCast S8x4096x768 (target m c) shapeCasts_S32768x768_S8x4096x768
    = onBatch (m ((c : Thread nD τ).loc main_arg0)) (m ((c : Thread nD τ).loc main_arg3)) (m ((c : Thread nD τ).loc main_arg1))
        (m ((c : Thread nD τ).loc main_arg4)) (m ((c : Thread nD τ).loc main_arg2)) := by
  funext i
  obtain ⟨b, r, p, rfl⟩ : ∃ (b : Fin 8) (r : Fin 4096) (p : Fin 768), i = ix3 b r p := ⟨i 0, i 1, i 2, eq_ix3 i⟩
  have hR : b.val * 4096 + r.val < 32768 := by omega
  rw [shapeCast_apply (target m c) shapeCasts_S32768x768_S8x4096x768 (ix3 b r p) (ix2 (⟨b.val * 4096 + r.val, hR⟩ : Fin 32768) p)
    (by rw [Shape.rowMajor_val_two, Shape.rowMajor_val_three]; rfl)]
  show rowOut (fun k => V m c main_v0 (ix2 (⟨b.val * 4096 + r.val, hR⟩ : Fin 32768) k)) (V m c main_v2) (V m c main_v3) (V m c main_v4)
        (fun p' => V m c main_v1 (ix2 (0 : Fin 1) p')) p
      = rowOut (fun k => m ((c : Thread nD τ).loc main_arg0) (ix3 b r k)) (m ((c : Thread nD τ).loc main_arg3)) (m ((c : Thread nD τ).loc main_arg1))
        (m ((c : Thread nD τ).loc main_arg4)) (fun p' => m ((c : Thread nD τ).loc main_arg2) (ix1 p')) p
  rw [first_in, second_in, third_in, rows_in, bias_in]
  congr 1
  · funext k
    exact shapeCast_apply (s := S8x4096x768) (t := S32768x768) _ _ _ _ (by
      show (S8x4096x768.rowMajor (ix3 b r k)).val = (S32768x768.rowMajor (ix2 (⟨b.val * 4096 + r.val, hR⟩ : Fin 32768) k)).val
      rw [Shape.rowMajor_val_two, Shape.rowMajor_val_three]; rfl)
  · funext p'
    exact shapeCast_a_1a_apply _ _ (0 : Fin 1) p'

/-! ## The run -/

/-- Every weakly fair execution of the idealized kernel's @main terminates with the result buffer at the row map of
    the arguments, and the arguments unchanged. -/
theorem run : θ_run defs (onTc (τ := τ) (main (F := Ideal))) ⟨m, fun _ => 0, ρ⟩ fun r => ∀ c : Dev nD,
      r.2.mem ((c.tc : Thread nD τ).loc main_v6) = onBatch (m ((c : Thread nD τ).loc main_arg0)) (m ((c : Thread nD τ).loc main_arg3))
          (m ((c : Thread nD τ).loc main_arg1)) (m ((c : Thread nD τ).loc main_arg4)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(((h c).2 main_v6 (Pipeline.mem_restRefs_of main_v6 (by decide) (by decide))).trans (out_eq m c)).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Around

end
-- ==== Proof.RefValue.lean ====
/-
  The reference computes the row map, row by row.

  Each `dot_general` of the reference contracts the last axis of a [8, 4096, 768] array with the SECOND axis of a square
  matrix: entry `(b, r, d)` is the sum over `k` of the left operand at `(b, r, k)` times the matrix at `(d, k)` — a
  contraction of row `(b, r)` with row `d` of the matrix, as in `RowMap`.  The threshold between the first and the second
  product and the bias add after the third act entry by entry; the bias vector is broadcast over the first two axes.
-/
import proofs.«143843_j12506944766463_1_alg».proof.Proof.Gen.ReferenceIdeal.Read
import proofs.«143843_j12506944766463_1_alg».proof.Proof.RowMap

noncomputable section

namespace Cert.ReferenceIdeal.RefValue

open Cert.ReferenceIdeal Cert.ReferenceIdeal.Gen Cert.ReferenceIdeal.Read Idealize.ShloMosaic Idealize.ShloMosaic.ValueIdx Cert.RowMap

/-! ## Where a product reads its operands -/

/-- The left operand is read on the output's row `(b, r)`, at the contracted coordinate. -/
theorem left_at (b : Fin 8) (r : Fin 4096) (d k : Fin 768) : lidx_main_v0 (ix3 b r d) k = ix3 b r k :=
  funext fun a => Fin.ext (by match a with | ⟨0, _⟩ => rfl | ⟨1, _⟩ => rfl | ⟨2, _⟩ => rfl)
/-- The matrix is read on the row the output's last coordinate names, at the contracted coordinate. -/
theorem right_at (b : Fin 8) (r : Fin 4096) (d k : Fin 768) : ridx_main_v0 (ix3 b r d) k = ix2 d k :=
  funext fun a => Fin.ext (by match a with | ⟨0, _⟩ => rfl | ⟨1, _⟩ => rfl)

/-! ## The stages, at an entry -/

/-- The first product: row `(b, r)` of the input contracted with row `d` of the first matrix. -/
theorem first_at (x0 : S8x4096x768.Idx → EReal) (x3 : Mat) (b : Fin 8) (r : Fin 4096) (d : Fin 768) :
    val_main_v0 (F := Ideal) x0 x3 (ix3 b r d) = contract (fun k => x0 (ix3 b r k)) x3 d := by
  rw [val_main_v0_apply]
  unfold contract
  refine Finset.sum_congr rfl fun k _ => ?_
  rw [left_at, right_at]

/-- The thresholded first product. -/
theorem kept_at (x0 : S8x4096x768.Idx → EReal) (x3 : Mat) (b : Fin 8) (r : Fin 4096) (d : Fin 768) :
    val_main_v4 (F := Ideal) x0 x3 (ix3 b r d) = keep (contract (fun k => x0 (ix3 b r k)) x3 d) := by
  rw [val_main_v4_apply, val_main_v3_apply, val_main_v1_apply, val_main_v2_apply, val_main_cst_apply,
    val_main_call0_v0_apply, val_main_cst_0_apply, first_at]
  rfl

/-- The second product, of the thresholded rows with the second matrix. -/
theorem second_at (x0 : S8x4096x768.Idx → EReal) (x1 x3 : Mat) (b : Fin 8) (r : Fin 4096) (o : Fin 768) :
    val_main_v5 (F := Ideal) x0 x1 x3 (ix3 b r o)
      = contract (fun d => keep (contract (fun k => x0 (ix3 b r k)) x3 d)) x1 o := by
  rw [val_main_v5_apply]
  unfold contract
  refine Finset.sum_congr rfl fun k _ => ?_
  rw [show lidx_main_v5 (ix3 b r o) k = ix3 b r k from left_at b r o k,
    show ridx_main_v5 (ix3 b r o) k = ix2 o k from right_at b r o k, kept_at]
  rfl

/-- The third product, with the last matrix. -/
theorem third_at (x0 : S8x4096x768.Idx → EReal) (x1 x3 x4 : Mat) (b : Fin 8) (r : Fin 4096) (p : Fin 768) :
    val_main_v6 (F := Ideal) x0 x1 x3 x4 (ix3 b r p)
      = contract (contract (fun d => keep (contract (fun k => x0 (ix3 b r k)) x3 d)) x1) x4 p := by
  rw [val_main_v6_apply]
  unfold contract
  refine Finset.sum_congr rfl fun k _ => ?_
  rw [show lidx_main_v6 (ix3 b r p) k = ix3 b r k from left_at b r p k,
    show ridx_main_v6 (ix3 b r p) k = ix2 p k from right_at b r p k, second_at]
  rfl

/-- The bias, broadcast over the first two axes. -/
theorem bias_at (x2 : S768.Idx → EReal) (b : Fin 8) (r : Fin 4096) (p : Fin 768) :
    val_main_v8 (F := Ideal) x2 (ix3 b r p) = x2 (ix1 p) := by
  rw [val_main_v8_apply, val_main_v7_apply]
  exact congrArg x2 (funext fun a => Fin.ext (by match a with | ⟨0, _⟩ => rfl))

/-! ## The whole result -/

/-- The reference's result is the row map of each row `(b, r)` of its input: `U` is its fourth argument, the weight its
    second, `VT` its fifth, the bias its third. -/
theorem result_eq (x0 : S8x4096x768.Idx → EReal) (x1 : Mat) (x2 : S768.Idx → EReal) (x3 x4 : Mat) :
    val_main_v9 (F := Ideal) x0 x1 x2 x3 x4 = onBatch x0 x3 x1 x4 x2 := by
  funext i
  obtain ⟨b, r, p, rfl⟩ : ∃ (b : Fin 8) (r : Fin 4096) (p : Fin 768), i = ix3 b r p := ⟨i 0, i 1, i 2, eq_ix3 i⟩
  rw [val_main_v9_apply, third_at, bias_at]
  rfl

end Cert.ReferenceIdeal.RefValue

end
-- ==== Proof.lean ====
/-
  The certificate: a fused kernel of three matrix products with a threshold between the first two and a bias add at
  the end, against the same computation written as three einsums.

  For each row `v` of the [8, 4096, 768] input (32768 rows in all) both programs compute

      out = ((keep (v · Uᵀ)) · Wᵀ) · VTᵀ + bias,      keep h = h where |h| > 1e-3 (one f32 word), else 0,

  every product contracting the LAST axis of both operands.  The kernel flattens the rows, takes them 1024 at a time
  and keeps the three matrices (converted to a narrower float format, which is the identity on extended reals) and the
  bias row resident; the reference applies the three contractions to the whole array.  Row by row these are the same
  sums of the same products (`RowMap`), so the two results are equal on all extended reals and the precondition is
  never opened.

    * `RowMap`   — the row map, and the result as one function of the arguments in both layouts;
    * `Body`     — one grid point's stored block is the row map of the rows it loaded;
    * `Rows`     — the 32 written blocks are the blocks of one array, and they tile it;
    * `Around`   — the flattening before the region and the un-flattening after it; the kernel's run;
    * `RefValue` — the reference's stages, read at an entry, are the row map.

  The three frames: the two kernels' are the generated frame certificates; the reference's is its generated run with
  the result dropped.  The idealization rewrote nothing, so `preserves` has no conjunct.
-/
import proofs.«143843_j12506944766463_1_alg».proof.Defs
import proofs.«143843_j12506944766463_1_alg».proof.Proof.Gen.Kernel
import proofs.«143843_j12506944766463_1_alg».proof.Proof.Gen.Kernel.Skeleton
import proofs.«143843_j12506944766463_1_alg».proof.Proof.Gen.Kernel.Launch
import proofs.«143843_j12506944766463_1_alg».proof.Proof.Gen.Kernel.Points
import proofs.«143843_j12506944766463_1_alg».proof.Proof.Gen.Kernel.Frame
import proofs.«143843_j12506944766463_1_alg».proof.Proof.Gen.KernelIdeal
import proofs.«143843_j12506944766463_1_alg».proof.Proof.Gen.KernelIdeal.Skeleton
import proofs.«143843_j12506944766463_1_alg».proof.Proof.Gen.KernelIdeal.Launch
import proofs.«143843_j12506944766463_1_alg».proof.Proof.Gen.KernelIdeal.Points
import proofs.«143843_j12506944766463_1_alg».proof.Proof.Gen.KernelIdeal.Frame
import proofs.«143843_j12506944766463_1_alg».proof.Proof.Gen.ReferenceIdeal
import proofs.«143843_j12506944766463_1_alg».proof.Proof.Gen.Pre_finite_inputs
import proofs.«143843_j12506944766463_1_alg».proof.Proof.Gen.ReferenceIdeal.Run
import proofs.«143843_j12506944766463_1_alg».proof.Proof.Gen.ReferenceIdeal.Read
import proofs.«143843_j12506944766463_1_alg».proof.Proof.Around
import proofs.«143843_j12506944766463_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the row map of the arguments: the kernel by `Around.run`, the reference by its run read
    stage by stage (`RefValue.result_eq`), at arguments that agree. -/
theorem algebraic : Cert.algebraic_KernelIdeal_ReferenceIdeal := by
  intro m ρ m' ρ' _ hagree
  refine ⟨fun c => Cert.RowMap.onBatch (m ((c : Thread Cert.KernelIdeal.nD Cert.KernelIdeal.τ).loc Cert.KernelIdeal.main_arg0))
      (m ((c : Thread Cert.KernelIdeal.nD Cert.KernelIdeal.τ).loc Cert.KernelIdeal.main_arg3))
      (m ((c : Thread Cert.KernelIdeal.nD Cert.KernelIdeal.τ).loc Cert.KernelIdeal.main_arg1))
      (m ((c : Thread Cert.KernelIdeal.nD Cert.KernelIdeal.τ).loc Cert.KernelIdeal.main_arg4))
      (m ((c : Thread Cert.KernelIdeal.nD Cert.KernelIdeal.τ).loc Cert.KernelIdeal.main_arg2)),
    Cert.KernelIdeal.Around.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
